-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1x1024 : Shape := ⟨2, ![1, 1024]⟩
abbrev S2x16384x1024 : Shape := ⟨3, ![2, 16384, 1024]⟩
abbrev S256x1024 : Shape := ⟨2, ![256, 1024]⟩
abbrev S2x256x1024 : Shape := ⟨3, ![2, 256, 1024]⟩
abbrev S1024x1024 : Shape := ⟨2, ![1024, 1024]⟩
abbrev S1x256x1024 : Shape := ⟨3, ![1, 256, 1024]⟩

abbrev nBuf : Space → Nat
  | .hbm => 20
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x2048, .bf16⟩
  | .hbm, ⟨12, _⟩ => ⟨S1024x2048, .bf16⟩
  | .hbm, ⟨13, _⟩ => ⟨S1024x2048, .bf16⟩
  | .hbm, ⟨14, _⟩ => ⟨S1024x2048, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S2x16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S2x256x1024, .f32⟩
  | .local _ .vmem, ⟨15, _⟩ => ⟨S2x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x2048_S1024x1024_0_0 : ∀ a, (![0, 0] : Fin 2 → Nat) a + S1024x1024.size a ≤ S1024x2048.size a
  h_S1024x1024 : 0 < S1024x1024.numel
  shapeCasts_S1024x1024_S1024x1024 : S1024x1024.ShapeCasts S1024x1024
  inb_S1024x2048_S1024x1024_0_1024 : ∀ a, (![0, 1024] : Fin 2 → Nat) a + S1024x1024.size a ≤ S1024x2048.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S2x256x1024_S1x256x1024_0_0_0 : ∀ a, (![0, 0, 0] : Fin 3 → Nat) a + S1x256x1024.size a ≤ S2x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S2x256x1024_S1x256x1024_1_0_0 : ∀ a, (![1, 0, 0] : Fin 3 → Nat) a + S1x256x1024.size a ≤ S2x256x1024.size a
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x256x1024.size a ≤ S2x16384x1024.size a
  hwx0_11 : ∀ i : grid0.Coords, EltTy.bits .f32 = 32 ∨ (Rect.block (s := S2x16384x1024) S2x256x1024.size (cc0_transform_11 i) (hinb0_11 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S2x256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S2048x1024 : Shape := ⟨2, ![2048, 1024]⟩
abbrev S1x1024 : Shape := ⟨2, ![1, 1024]⟩
abbrev S_ : Shape := ⟨0, ![]⟩
abbrev S1x16384x1024 : Shape := ⟨3, ![1, 16384, 1024]⟩
abbrev S2x16384x1024 : Shape := ⟨3, ![2, 16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S2048x1024, .f32⟩
  | .hbm, ⟨13, _⟩ => ⟨S16384x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S2048x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S2048x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S2048x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1x16384x1024, .f32⟩
  | .hbm, ⟨63, _⟩ => ⟨S1x16384x1024, .f32⟩
  | .hbm, ⟨64, _⟩ => ⟨S2x16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S16384x1024_S1x16384x1024_1_2 : S16384x1024.BroadcastsInDim S1x16384x1024 (![1, 2] : Fin 2 → Fin S1x16384x1024.rank)
  concatenates_S1x16384x1024_S1x16384x1024_S2x16384x1024_d0 : Shape.Concatenates [S1x16384x1024, S1x16384x1024] S2x16384x1024 0
  dot_S16384x2048_S2048x1024_S16384x1024_1_0_0_1_n_n_wf : DotDims.WF S16384x2048 S2048x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Spec.lean ====
/-
  One step of a long short-term memory cell over a batch, as mathematics on the extended reals.

  For a batch row r and a unit j, each of the four gates has the pre-activation
      pre(r, j) = Σ_k x(r, k) · W(j, k) + Σ_k h(r, k) · W(j, 1024 + k) + b(j),
  the input row against the left half of the gate's weight row, the previous hidden row against its right half.
  With i, f, o the logistic function of their pre-activations and z the hyperbolic tangent of its own,
      c'(r, j) = i · z + f · c(r, j),        h'(r, j) = o · tanh c'(r, j),
  and the result stacks h' (plane 0) over c' (plane 1).

  Two laws join the two programs to this text: a sum over 2048 columns is the sum over its left half plus the sum over
  its right half (any commutative monoid: no finiteness is used), and the quotient 1 / (1 + e^(-s)) IS the logistic
  function on the extended reals, by its definition there.
-/
import Idealize.ShloMosaic.PureOps.Ideal
import Idealize.ShloMosaic.Lib.ValueIdx

noncomputable section

open scoped BigOperators

namespace Cert.Cell

open Idealize.ShloMosaic Idealize.ShloMosaic.ValueIdx

/-- A matrix of extended reals, R rows by C columns. -/
abbrev Mat (R C : Nat) : Type := (⟨2, ![R, C]⟩ : Shape).Idx → EReal

/-- Column k of the left half of a 2048-column weight row. -/
abbrev lo (k : Fin 1024) : Fin 2048 := ⟨k.val, by have := k.isLt; omega⟩
/-- Column k of its right half. -/
abbrev hi (k : Fin 1024) : Fin 2048 := ⟨1024 + k.val, by have := k.isLt; omega⟩

/-- A gate's pre-activation at batch row r and unit j. -/
def pre {B : Nat} (x h : Mat B 1024) (W : Mat 1024 2048) (b : Fin 1024 → EReal) (r : Fin B) (j : Fin 1024) : EReal :=
  (∑ k : Fin 1024, x (ix2 r k) * W (ix2 j (lo k))) + (∑ k : Fin 1024, h (ix2 r k) * W (ix2 j (hi k))) + b j

/-- The new cell state: input gate times candidate, plus forget gate times the old cell state. -/
def cellNew {B : Nat} (x h c : Mat B 1024) (Wi Wf Wz : Mat 1024 2048) (bi bf bz : Fin 1024 → EReal)
    (r : Fin B) (j : Fin 1024) : EReal :=
  Ideal.logistic (pre x h Wi bi r j) * Ideal.tanh (pre x h Wz bz r j) + Ideal.logistic (pre x h Wf bf r j) * c (ix2 r j)

/-- The new hidden state: output gate times the hyperbolic tangent of the new cell state. -/
def hiddenNew {B : Nat} (x h c : Mat B 1024) (Wi Wf Wo Wz : Mat 1024 2048) (bi bf bo bz : Fin 1024 → EReal)
    (r : Fin B) (j : Fin 1024) : EReal :=
  Ideal.logistic (pre x h Wo bo r j) * Ideal.tanh (cellNew x h c Wi Wf Wz bi bf bz r j)

/-- The result: the new hidden state in plane 0, the new cell state in plane 1. -/
def stacked {B : Nat} (x h c : Mat B 1024) (Wi Wf Wo Wz : Mat 1024 2048) (bi bf bo bz : Fin 1024 → EReal) :
    (⟨3, ![2, B, 1024]⟩ : Shape).Idx → EReal := fun i =>
  if (i 0).val = 0 then hiddenNew x h c Wi Wf Wo Wz bi bf bo bz (i 1) (i 2)
  else cellNew x h c Wi Wf Wz bi bf bz (i 1) (i 2)

/-- At an index of plane 0 the stack holds the new hidden state. -/
theorem stacked_plane0 {B : Nat} (x h c : Mat B 1024) (Wi Wf Wo Wz : Mat 1024 2048) (bi bf bo bz : Fin 1024 → EReal)
    (i : (⟨3, ![2, B, 1024]⟩ : Shape).Idx) (r : Fin B) (j : Fin 1024)
    (h0 : (i 0).val = 0) (h1 : (i 1).val = r.val) (h2 : (i 2).val = j.val) :
    stacked x h c Wi Wf Wo Wz bi bf bo bz i = hiddenNew x h c Wi Wf Wo Wz bi bf bo bz r j := by
  have e1 : i 1 = r := Fin.ext h1
  have e2 : i 2 = j := Fin.ext h2
  unfold stacked
  rw [if_pos h0, e1, e2]

/-- At an index of plane 1 the stack holds the new cell state. -/
theorem stacked_plane1 {B : Nat} (x h c : Mat B 1024) (Wi Wf Wo Wz : Mat 1024 2048) (bi bf bo bz : Fin 1024 → EReal)
    (i : (⟨3, ![2, B, 1024]⟩ : Shape).Idx) (r : Fin B) (j : Fin 1024)
    (h0 : (i 0).val = 1) (h1 : (i 1).val = r.val) (h2 : (i 2).val = j.val) :
    stacked x h c Wi Wf Wo Wz bi bf bo bz i = cellNew x h c Wi Wf Wz bi bf bz r j := by
  have e1 : i 1 = r := Fin.ext h1
  have e2 : i 2 = j := Fin.ext h2
  unfold stacked
  rw [if_neg (by omega), e1, e2]

/-- A sum over 2048 columns is the sum over the left half plus the sum over the right half. -/
theorem sum_halves {M : Type} [AddCommMonoid M] (f : Fin 2048 → M) :
    (∑ k : Fin 2048, f k) = (∑ k : Fin 1024, f (lo k)) + ∑ k : Fin 1024, f (hi k) :=
  Fin.sum_univ_add (a := 1024) (b := 1024) f

/-- The pre-activation from ONE sum over all 2048 columns of the input row and the hidden row set side by side. -/
theorem pre_of_joined {B : Nat} (x h : Mat B 1024) (W : Mat 1024 2048) (b : Fin 1024 → EReal) (r : Fin B) (j : Fin 1024)
    (xh : Fin 2048 → EReal) (hlo : ∀ k, xh (lo k) = x (ix2 r k)) (hhi : ∀ k, xh (hi k) = h (ix2 r k)) :
    (∑ k : Fin 2048, xh k * W (ix2 j k)) + b j = pre x h W b r j := by
  unfold pre
  rw [sum_halves]
  simp only [hlo, hhi]

/-- The quotient one over one plus the exponential of the negative IS the logistic function. -/
theorem logistic_spelled (s : EReal) : Ideal.div 1 (1 + Ideal.exp (-s)) = Ideal.logistic s := rfl

/-- The word 0x3F800000 denotes the real number one. -/
theorem ofBits_one : Ideal.ofBits .f32 0x3F800000#32 = 1 := by
  simp [Ideal.ofBits, Ideal.ieee, -EReal.coe_mul]; norm_num

end Cert.Cell

end
-- ==== Proof.KernelPoint.lean ====
/-
  The arithmetic of one grid point, read at an entry.

  The body holds a block of 256 batch rows. Each gate is two products against the transposed halves of its weight
  matrix, added, plus the bias row repeated down the rows: at row p and unit j that is
      Σ_k x(p, k) · wl(j, k) + Σ_k h(p, k) · wr(j, k) + b(0, j).
  The narrowing of the two activations to sixteen bits is the identity on the extended reals, and a shape cast to the
  same shape changes nothing. From these the five stored or carried values are read at an entry: the input and forget
  gates, the new cell state, and the two stored planes (the new hidden state and the new cell state, each under a
  leading unit axis).
-/
import proofs.«141695_j51376398795261_1_alg».proof.Proof.Gen.KernelIdeal.Skeleton
import proofs.«141695_j51376398795261_1_alg».proof.Proof.LibDotT
import proofs.«141695_j51376398795261_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-- A block of activations against a transposed half of a weight matrix, into zero, at entry (p, j). -/
theorem prod_at (x : FVec Ideal S256x1024 .bf16) (w : FVec Ideal S1024x1024 .bf16) (p : Fin 256) (j : Fin 1024) :
    matmul dot_S256x1024_S1024x1024_S256x1024_1_1_0_0_n_n none x w (constant (F := Ideal) S256x1024 .f32 0x00000000#32) (ix2 p j)
      = ∑ k : Fin 1024, x (ix2 p k) * w (ix2 j k) :=
  Cert.LibDotT.matmul_zero_at_T dot_S256x1024_S1024x1024_S256x1024_1_1_0_0_n_n rfl rfl rfl rfl rfl rfl none x w p j

/-- The bias row repeated down the 256 rows, at entry (p, j): the row's entry j. -/
theorem bias_at (b : FVec Ideal S1x1024 .f32) (p : Fin 256) (j : Fin 1024) :
    broadcastTo S256x1024 b broadcasts_S1x1024_S256x1024 (ix2 p j) = b (ix2 (0 : Fin 1) j) := by
  refine broadcastTo_apply b broadcasts_S1x1024_S256x1024 (ix2 p j) (ix2 (0 : Fin 1) j) ?_
  intro a
  match a with
  | ⟨0, _⟩ => rfl
  | ⟨1, _⟩ => rfl

/-- A gate's pre-activation block at entry (p, j). -/
theorem gate_at (xb hb : FVec Ideal S256x1024 .bf16) (wl wr : FVec Ideal S1024x1024 .bf16) (b : FVec Ideal S1x1024 .f32)
    (p : Fin 256) (j : Fin 1024) :
    addf (addf (matmul dot_S256x1024_S1024x1024_S256x1024_1_1_0_0_n_n none xb wl (constant (F := Ideal) S256x1024 .f32 0x00000000#32))
               (matmul dot_S256x1024_S1024x1024_S256x1024_1_1_0_0_n_n none hb wr (constant (F := Ideal) S256x1024 .f32 0x00000000#32)))
         (broadcastTo S256x1024 b broadcasts_S1x1024_S256x1024) (ix2 p j)
      = (∑ k : Fin 1024, xb (ix2 p k) * wl (ix2 j k)) + (∑ k : Fin 1024, hb (ix2 p k) * wr (ix2 j k)) + b (ix2 (0 : Fin 1) j) := by
  show matmul dot_S256x1024_S1024x1024_S256x1024_1_1_0_0_n_n none xb wl (constant (F := Ideal) S256x1024 .f32 0x00000000#32) (ix2 p j)
      + matmul dot_S256x1024_S1024x1024_S256x1024_1_1_0_0_n_n none hb wr (constant (F := Ideal) S256x1024 .f32 0x00000000#32) (ix2 p j)
      + broadcastTo S256x1024 b broadcasts_S1x1024_S256x1024 (ix2 p j) = _
  rw [prod_at, prod_at, bias_at]

/-- Narrowing the input block to sixteen bits is the identity on the extended reals. -/
theorem narrowX_at (v0 : Vec Ideal S256x1024 .f32) (i : S256x1024.Idx) : k0_pay4 (F := Ideal) v0 i = v0 i := rfl

/-- Likewise for the hidden-state block. -/
theorem narrowH_at (v2 : Vec Ideal S256x1024 .f32) (i : S256x1024.Idx) : k0_pay5 (F := Ideal) v2 i = v2 i := rfl

/-- The output gate's weight halves pass through a shape cast to their own shape: unchanged. -/
theorem k0_pay8_eq (v29 : Vec Ideal S1024x1024 .bf16) : k0_pay8 (F := Ideal) v29 = v29 := by
  unfold k0_pay8; exact shapeCast_self _ _

theorem k0_pay9_eq (v31 : Vec Ideal S1024x1024 .bf16) : k0_pay9 (F := Ideal) v31 = v31 := by
  unfold k0_pay9; exact shapeCast_self _ _

/-- The input gate's block at entry (p, j). -/
theorem inputGate_at (v0 v2 : Vec Ideal S256x1024 .f32) (v5 v7 : Vec Ideal S1024x1024 .bf16) (v12 : Vec Ideal S1x1024 .f32)
    (p : Fin 256) (j : Fin 1024) :
    k0_pay6 (F := Ideal) v0 v2 v5 v7 v12 (ix2 p j)
      = Ideal.logistic ((∑ k : Fin 1024, v0 (ix2 p k) * v5 (ix2 j k)) + (∑ k : Fin 1024, v2 (ix2 p k) * v7 (ix2 j k)) + v12 (ix2 (0 : Fin 1) j)) := by
  unfold k0_pay6 k0_pay4 k0_pay5
  simp only [shapeCast_self]
  exact congrArg Ideal.logistic (gate_at _ _ _ _ _ p j)

/-- The forget gate's block at entry (p, j). -/
theorem forgetGate_at (v0 v2 : Vec Ideal S256x1024 .f32) (v17 v19 : Vec Ideal S1024x1024 .bf16) (v24 : Vec Ideal S1x1024 .f32)
    (p : Fin 256) (j : Fin 1024) :
    k0_pay7 (F := Ideal) v0 v2 v17 v19 v24 (ix2 p j)
      = Ideal.logistic ((∑ k : Fin 1024, v0 (ix2 p k) * v17 (ix2 j k)) + (∑ k : Fin 1024, v2 (ix2 p k) * v19 (ix2 j k)) + v24 (ix2 (0 : Fin 1) j)) := by
  unfold k0_pay7 k0_pay4 k0_pay5
  simp only [shapeCast_self]
  exact congrArg Ideal.logistic (gate_at _ _ _ _ _ p j)

/-- The new cell state's block at entry (p, j), from the two gates' blocks, the old cell state and the candidate's
    operands. -/
theorem cell_at (v1 v3 : FVec Ideal S256x1024 .bf16) (v4 : Vec Ideal S256x1024 .f32) (v16 v28 : FVec Ideal S256x1024 .f32)
    (v41 v43 : Vec Ideal S1024x1024 .bf16) (v48 : Vec Ideal S1x1024 .f32) (p : Fin 256) (j : Fin 1024) :
    k0_pay1 (F := Ideal) v1 v3 v4 v16 v28 v41 v43 v48 (ix2 p j)
      = v16 (ix2 p j) * Ideal.tanh ((∑ k : Fin 1024, v1 (ix2 p k) * v41 (ix2 j k)) + (∑ k : Fin 1024, v3 (ix2 p k) * v43 (ix2 j k)) + v48 (ix2 (0 : Fin 1) j))
        + v28 (ix2 p j) * v4 (ix2 p j) := by
  unfold k0_pay1
  simp only [shapeCast_self]
  exact congrArg (fun s => v16 (ix2 p j) * Ideal.tanh s + v28 (ix2 p j) * v4 (ix2 p j)) (gate_at _ _ _ _ _ p j)

/-- A block under a leading unit axis, at (0, p, j): the block at (p, j). -/
theorem underUnit_at (v : FVec Ideal S256x1024 .f32) (p : Fin 256) (j : Fin 1024) :
    shapeCast S1x256x1024 v shapeCasts_S256x1024_S1x256x1024 (ix3 (0 : Fin 1) p j) = v (ix2 p j) := by
  refine (shapeCast_addUnit_apply ![256, 1024] v shapeCasts_S256x1024_S1x256x1024 (ix3 (0 : Fin 1) p j)).trans ?_
  exact congrArg v (funext fun a => match a with
    | ⟨0, _⟩ => rfl
    | ⟨1, _⟩ => rfl)

/-- The stored new-cell-state plane at (0, p, j). -/
theorem cellPlane_at (v1 v3 : FVec Ideal S256x1024 .bf16) (v4 : Vec Ideal S256x1024 .f32) (v16 v28 : FVec Ideal S256x1024 .f32)
    (v41 v43 : Vec Ideal S1024x1024 .bf16) (v48 : Vec Ideal S1x1024 .f32) (p : Fin 256) (j : Fin 1024) :
    k0_pay3 (F := Ideal) v1 v3 v4 v16 v28 v41 v43 v48 (ix3 (0 : Fin 1) p j)
      = k0_pay1 (F := Ideal) v1 v3 v4 v16 v28 v41 v43 v48 (ix2 p j) := by
  unfold k0_pay3
  exact underUnit_at _ p j

/-- The stored new-hidden-state plane at (0, p, j): the output gate times the hyperbolic tangent of the new cell
    state. -/
theorem hiddenPlane_at (v1 v3 : FVec Ideal S256x1024 .bf16) (v4 : Vec Ideal S256x1024 .f32) (v16 v28 : FVec Ideal S256x1024 .f32)
    (v30 v32 : FVec Ideal S1024x1024 .bf16) (v36 : Vec Ideal S1x1024 .f32)
    (v41 v43 : Vec Ideal S1024x1024 .bf16) (v48 : Vec Ideal S1x1024 .f32) (p : Fin 256) (j : Fin 1024) :
    k0_pay2 (F := Ideal) v1 v3 v4 v16 v28 v30 v32 v36 v41 v43 v48 (ix3 (0 : Fin 1) p j)
      = Ideal.logistic ((∑ k : Fin 1024, v1 (ix2 p k) * v30 (ix2 j k)) + (∑ k : Fin 1024, v3 (ix2 p k) * v32 (ix2 j k)) + v36 (ix2 (0 : Fin 1) j))
        * Ideal.tanh (k0_pay1 (F := Ideal) v1 v3 v4 v16 v28 v41 v43 v48 (ix2 p j)) := by
  unfold k0_pay2
  simp only [shapeCast_self]
  refine (underUnit_at _ p j).trans ?_
  exact congrArg (fun s => Ideal.logistic s * Ideal.tanh (k0_pay1 (F := Ideal) v1 v3 v4 v16 v28 v41 v43 v48 (ix2 p j)))
    (gate_at _ _ _ _ _ p j)

end Cert.KernelIdeal.Point

end
-- ==== Proof.KernelBlock.lean ====
/-
  What one grid point leaves in the output block, as one function of the block index.

  The body loads each activation block and each bias row whole, and each weight matrix as its left and right halves
  (columns 0..1023 and 1024..2047). It stores the new hidden state into plane 0 of the [2, 256, 1024] output block and
  the new cell state into plane 1; the two stores tile the block. So at every index the block holds the stacked cell
  step of the 256 rows it was given.
-/
import proofs.«141695_j51376398795261_1_alg».proof.Proof.Gen.KernelIdeal.Frame
import proofs.«141695_j51376398795261_1_alg».proof.Proof.KernelPoint

noncomputable section

open scoped BigOperators

namespace Cert.KernelIdeal.Block

open Cert.KernelIdeal Cert.KernelIdeal.Gen Idealize.ShloMosaic Idealize.ShloMosaic.ValueIdx

theorem zeros2 : (![0, 0] : Fin 2 → Nat) = fun _ => 0 := funext fun a => by fin_cases a <;> rfl

/-- Where the load of a weight matrix's left half reads, at (j, k): column k. -/
theorem leftHalf_idx (j k : Fin 1024) : r0_1.idx (ix2 j k) = ix2 j (Cert.Cell.lo k) := by
  refine funext fun a => Fin.ext ?_
  match a with
  | ⟨0, _⟩ => show 0 + 1 * j.val = j.val; omega
  | ⟨1, _⟩ => show 0 + 1 * k.val = k.val; omega

/-- Where the load of its right half reads, at (j, k): column 1024 + k. -/
theorem rightHalf_idx (j k : Fin 1024) : r0_2.idx (ix2 j k) = ix2 j (Cert.Cell.hi k) := by
  refine funext fun a => Fin.ext ?_
  match a with
  | ⟨0, _⟩ => show 0 + 1 * j.val = j.val; omega
  | ⟨1, _⟩ => show 1024 + 1 * k.val = 1024 + k.val; omega

/-- The stacked cell step of a block of 256 rows, from the blocks and whole arrays one grid point is given. -/
abbrev blockStep (x0 x1 x2 : Vec Ideal S256x1024 .f32) (x3 x4 x5 x6 : Vec Ideal S1024x2048 .bf16)
    (x7 x8 x9 x10 : Vec Ideal S1x1024 .f32) : S2x256x1024.Idx → EReal :=
  Cert.Cell.stacked (B := 256) x0 x1 x2 x3 x4 x5 x6 (fun j => x7 (ix2 (0 : Fin 1) j)) (fun j => x8 (ix2 (0 : Fin 1) j))
    (fun j => x9 (ix2 (0 : Fin 1) j)) (fun j => x10 (ix2 (0 : Fin 1) j))

/-- An index of a [1, 256, 1024] piece is (0, p, j). -/
theorem piece_idx (x : S1x256x1024.Idx) : ∃ (p : Fin 256) (j : Fin 1024), x = ix3 (0 : Fin 1) p j := by
  have h0 : (x 0).val < 1 := (x 0).isLt
  exact ⟨x 1, x 2, funext fun a => match a with
    | ⟨0, _⟩ => Fin.ext (show (x 0).val = 0 by omega)
    | ⟨1, _⟩ => rfl
    | ⟨2, _⟩ => rfl⟩

/-- The store into plane 1 writes the new cell state. -/
theorem cellPiece (x0 x1 x2 : Vec Ideal S256x1024 .f32) (x3 x4 x5 x6 : Vec Ideal S1024x2048 .bf16)
    (x7 x8 x9 x10 : Vec Ideal S1x1024 .f32) (p : Fin 256) (j : Fin 1024) :
    k0_pay3 (F := Ideal) (k0_pay4 x0) (k0_pay5 x1) x2 (k0_pay6 x0 x1 (View.ld x3 r0_1) (View.ld x3 r0_2) x7)
        (k0_pay7 x0 x1 (View.ld x4 r0_1) (View.ld x4 r0_2) x8) (View.ld x6 r0_1) (View.ld x6 r0_2) x10 (ix3 (0 : Fin 1) p j)
      = blockStep x0 x1 x2 x3 x4 x5 x6 x7 x8 x9 x10 (r0_5.emb (ix3 (0 : Fin 1) p j)) := by
  rw [blockStep, Cert.Cell.stacked_plane1 x0 x1 x2 x3 x4 x5 x6 _ _ _ _ (r0_5.emb (ix3 (0 : Fin 1) p j)) p j
    (show 1 + 1 * 0 = 1 from rfl) (show 0 + 1 * p.val = p.val by omega) (show 0 + 1 * j.val = j.val by omega)]
  rw [Point.cellPlane_at, Point.cell_at, Point.inputGate_at, Point.forgetGate_at]
  unfold Cert.Cell.cellNew Cert.Cell.pre
  simp only [View.ld, leftHalf_idx, rightHalf_idx, Point.narrowX_at, Point.narrowH_at]

/-- The store into plane 0 writes the new hidden state. -/
theorem hiddenPiece (x0 x1 x2 : Vec Ideal S256x1024 .f32) (x3 x4 x5 x6 : Vec Ideal S1024x2048 .bf16)
    (x7 x8 x9 x10 : Vec Ideal S1x1024 .f32) (p : Fin 256) (j : Fin 1024) :
    k0_pay2 (F := Ideal) (k0_pay4 x0) (k0_pay5 x1) x2 (k0_pay6 x0 x1 (View.ld x3 r0_1) (View.ld x3 r0_2) x7)
        (k0_pay7 x0 x1 (View.ld x4 r0_1) (View.ld x4 r0_2) x8) (k0_pay8 (View.ld x5 r0_1)) (k0_pay9 (View.ld x5 r0_2)) x9
        (View.ld x6 r0_1) (View.ld x6 r0_2) x10 (ix3 (0 : Fin 1) p j)
      = blockStep x0 x1 x2 x3 x4 x5 x6 x7 x8 x9 x10 (r0_4.emb (ix3 (0 : Fin 1) p j)) := by
  rw [blockStep, Cert.Cell.stacked_plane0 x0 x1 x2 x3 x4 x5 x6 _ _ _ _ (r0_4.emb (ix3 (0 : Fin 1) p j)) p j
    (show 0 + 1 * 0 = 0 from rfl) (show 0 + 1 * p.val = p.val by omega) (show 0 + 1 * j.val = j.val by omega)]
  rw [Point.hiddenPlane_at, Point.cell_at, Point.inputGate_at, Point.forgetGate_at, Point.k0_pay8_eq, Point.k0_pay9_eq]
  unfold Cert.Cell.hiddenNew Cert.Cell.cellNew Cert.Cell.pre
  simp only [View.ld, leftHalf_idx, rightHalf_idx, Point.narrowX_at, Point.narrowH_at]

/-- The output block after the body, at an index: the stacked cell step of the point's 256 rows. -/
theorem out_at (x0 x1 x2 : Vec Ideal S256x1024 .f32) (x3 x4 x5 x6 : Vec Ideal S1024x2048 .bf16)
    (x7 x8 x9 x10 : Vec Ideal S1x1024 .f32) (y : S2x256x1024.Idx) :
    out0_11 (F := Ideal) x0 x1 x2 x3 x4 x5 x6 x7 x8 x9 x10 y = blockStep x0 x1 x2 x3 x4 x5 x6 x7 x8 x9 x10 y := by
  unfold out0_11
  simp only [View.ld_unit_zero (S := S256x1024) zeros2, View.ld_unit_zero (S := S1x1024) zeros2]
  refine View.canon_apply_of_pieces (Val := Elt Ideal) (S := S2x256x1024) (e := .f32)
    (blockStep x0 x1 x2 x3 x4 x5 x6 x7 x8 x9 x10) _
    (List.forall_mem_cons.mpr ⟨fun x => ?_, List.forall_mem_cons.mpr ⟨fun x => ?_, fun _ h => absurd h List.not_mem_nil⟩⟩)
    y (cover0_11 _ _ y)
  · obtain ⟨p, j, rfl⟩ := piece_idx x
    exact cellPiece x0 x1 x2 x3 x4 x5 x6 x7 x8 x9 x10 p j
  · obtain ⟨p, j, rfl⟩ := piece_idx x
    exact hiddenPiece x0 x1 x2 x3 x4 x5 x6 x7 x8 x9 x10 p j

end Cert.KernelIdeal.Block

end
-- ==== Proof.Rows.lean ====
/-
  The cell step acts row by row.

  Every value the step computes at batch row r reads only row r of the input, the previous hidden state and the previous
  cell state. So a block of rows cut out of a larger batch gives, at its row p, what the whole batch gives at the row
  p sits on — which is how a grid point's 256-row block of the result is a block of the whole result.

  Also here: the result both programs are compared against, the stacked step of the whole batch with the four bias
  vectors read as functions of the unit.
-/
import proofs.«141695_j51376398795261_1_alg».proof.Proof.Spec

noncomputable section

open scoped BigOperators

namespace Cert.Cell

open Idealize.ShloMosaic Idealize.ShloMosaic.ValueIdx

/-- A gate's pre-activation at a row depends only on that row of the input and of the hidden state. -/
theorem pre_rows {B B' : Nat} (x h : Mat B 1024) (x' h' : Mat B' 1024) (W : Mat 1024 2048) (b : Fin 1024 → EReal)
    (r : Fin B) (r' : Fin B') (j : Fin 1024)
    (hx : ∀ k, x (ix2 r k) = x' (ix2 r' k)) (hh : ∀ k, h (ix2 r k) = h' (ix2 r' k)) :
    pre x h W b r j = pre x' h' W b r' j := by
  unfold pre
  simp only [hx, hh]

/-- The stacked result at plane s, row r, unit j depends only on row r of the three batch arrays. -/
theorem stacked_rows {B B' : Nat} (x h c : Mat B 1024) (x' h' c' : Mat B' 1024) (Wi Wf Wo Wz : Mat 1024 2048)
    (bi bf bo bz : Fin 1024 → EReal) (s : Fin 2) (r : Fin B) (r' : Fin B') (j : Fin 1024)
    (hx : ∀ k, x (ix2 r k) = x' (ix2 r' k)) (hh : ∀ k, h (ix2 r k) = h' (ix2 r' k)) (hc : ∀ k, c (ix2 r k) = c' (ix2 r' k)) :
    stacked x h c Wi Wf Wo Wz bi bf bo bz (ix3 s r j) = stacked x' h' c' Wi Wf Wo Wz bi bf bo bz (ix3 s r' j) := by
  have hp : ∀ (W : Mat 1024 2048) (b : Fin 1024 → EReal), pre x h W b r j = pre x' h' W b r' j :=
    fun W b => pre_rows x h x' h' W b r r' j hx hh
  by_cases hs : s.val = 0
  · rw [stacked_plane0 x h c Wi Wf Wo Wz bi bf bo bz (ix3 s r j) r j hs rfl rfl,
      stacked_plane0 x' h' c' Wi Wf Wo Wz bi bf bo bz (ix3 s r' j) r' j hs rfl rfl]
    unfold hiddenNew cellNew
    rw [hp, hp, hp, hp, hc]
  · have hs1 : s.val = 1 := by have := s.isLt; omega
    rw [stacked_plane1 x h c Wi Wf Wo Wz bi bf bo bz (ix3 s r j) r j hs1 rfl rfl,
      stacked_plane1 x' h' c' Wi Wf Wo Wz bi bf bo bz (ix3 s r' j) r' j hs1 rfl rfl]
    unfold cellNew
    rw [hp, hp, hp, hc]

/-- A vector of 1024 extended reals. -/
abbrev Vec1 : Type := (⟨1, ![1024]⟩ : Shape).Idx → EReal

/-- The result of the step on the whole batch of 16384 rows, from the eleven argument arrays. -/
def result (x h c : Mat 16384 1024) (Wi : Mat 1024 2048) (bi : Vec1) (Wf : Mat 1024 2048) (bf : Vec1)
    (Wo : Mat 1024 2048) (bo : Vec1) (Wz : Mat 1024 2048) (bz : Vec1) : (⟨3, ![2, 16384, 1024]⟩ : Shape).Idx → EReal :=
  stacked x h c Wi Wf Wo Wz (fun j => bi (ix1 j)) (fun j => bf (ix1 j)) (fun j => bo (ix1 j)) (fun j => bz (ix1 j))

end Cert.Cell

end
-- ==== Proof.KernelValue.lean ====
/-
  From blocks to the whole array, and the kernel's run read.

  The grid has 64 points; point t is given rows 256 t .. 256 t + 255 of the input, the previous hidden state and the
  previous cell state, the four weight matrices and the four bias rows whole, and writes rows 256 t .. 256 t + 255 of
  both planes of the result. The block it writes is the stacked cell step of its 256 rows, and the step acts row by row,
  so it is that block of the step of the whole batch. The 64 blocks tile the result: index (s, r, j) lies in the
  block of point r / 256. Before the region the program only narrows the weight matrices (the identity on the extended
  reals) and gives each bias vector a leading unit axis, so the arrays the region finds are the arguments.
-/
import proofs.«141695_j51376398795261_1_alg».proof.Proof.Gen.KernelIdeal.Value
import proofs.«141695_j51376398795261_1_alg».proof.Proof.KernelBlock
import proofs.«141695_j51376398795261_1_alg».proof.Proof.Rows
import Idealize.ShloMosaic.Lib.StableHlo.Run
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The narrowed input-gate weights are the argument. -/
theorem found_Wi (c : Dev nD) : (V m c main_v0 : S1024x2048.Idx → EReal) = m ((c : Thread nD τ).loc main_arg3) := by
  dsimp only [V, hostOps0]; after_results; rfl

/-- The narrowed forget-gate weights are the argument. -/
theorem found_Wf (c : Dev nD) : (V m c main_v1 : S1024x2048.Idx → EReal) = m ((c : Thread nD τ).loc main_arg5) := by
  dsimp only [V, hostOps0]; after_results; rfl

/-- The narrowed output-gate weights are the argument. -/
theorem found_Wo (c : Dev nD) : (V m c main_v2 : S1024x2048.Idx → EReal) = m ((c : Thread nD τ).loc main_arg7) := by
  dsimp only [V, hostOps0]; after_results; rfl

/-- The narrowed candidate weights are the argument. -/
theorem found_Wz (c : Dev nD) : (V m c main_v3 : S1024x2048.Idx → EReal) = m ((c : Thread nD τ).loc main_arg9) := by
  dsimp only [V, hostOps0]; after_results; rfl

/-- A vector under a leading unit axis, at (0, j): the vector at j. -/
theorem row_of_vec (b : S1024.Idx → EReal) (j : Fin 1024) :
    shapeCast S1x1024 b shapeCasts_S1024_S1x1024 (ix2 (0 : Fin 1) j) = b (ix1 j) := by
  refine (shapeCast_addUnit_apply ![1024] b shapeCasts_S1024_S1x1024 (ix2 (0 : Fin 1) j)).trans ?_
  exact congrArg b (funext fun a => match a with
    | ⟨0, _⟩ => rfl)

/-- The input-gate bias row the region finds, at unit j. -/
theorem found_bi (c : Dev nD) (j : Fin 1024) :
    (V m c main_v4 : S1x1024.Idx → EReal) (ix2 (0 : Fin 1) j) = (m ((c : Thread nD τ).loc main_arg4) : S1024.Idx → EReal) (ix1 j) := by
  have e : (V m c main_v4 : S1x1024.Idx → EReal) = shapeCast S1x1024 (m ((c : Thread nD τ).loc main_arg4) : S1024.Idx → EReal) shapeCasts_S1024_S1x1024 := by
    dsimp only [V, hostOps0]; after_results; rfl
  rw [e, row_of_vec]

/-- The forget-gate bias row the region finds, at unit j. -/
theorem found_bf (c : Dev nD) (j : Fin 1024) :
    (V m c main_v5 : S1x1024.Idx → EReal) (ix2 (0 : Fin 1) j) = (m ((c : Thread nD τ).loc main_arg6) : S1024.Idx → EReal) (ix1 j) := by
  have e : (V m c main_v5 : S1x1024.Idx → EReal) = shapeCast S1x1024 (m ((c : Thread nD τ).loc main_arg6) : S1024.Idx → EReal) shapeCasts_S1024_S1x1024 := by
    dsimp only [V, hostOps0]; after_results; rfl
  rw [e, row_of_vec]

/-- The output-gate bias row the region finds, at unit j. -/
theorem found_bo (c : Dev nD) (j : Fin 1024) :
    (V m c main_v6 : S1x1024.Idx → EReal) (ix2 (0 : Fin 1) j) = (m ((c : Thread nD τ).loc main_arg8) : S1024.Idx → EReal) (ix1 j) := by
  have e : (V m c main_v6 : S1x1024.Idx → EReal) = shapeCast S1x1024 (m ((c : Thread nD τ).loc main_arg8) : S1024.Idx → EReal) shapeCasts_S1024_S1x1024 := by
    dsimp only [V, hostOps0]; after_results; rfl
  rw [e, row_of_vec]

/-- The candidate bias row the region finds, at unit j. -/
theorem found_bz (c : Dev nD) (j : Fin 1024) :
    (V m c main_v7 : S1x1024.Idx → EReal) (ix2 (0 : Fin 1) j) = (m ((c : Thread nD τ).loc main_arg10) : S1024.Idx → EReal) (ix1 j) := by
  have e : (V m c main_v7 : S1x1024.Idx → EReal) = shapeCast S1x1024 (m ((c : Thread nD τ).loc main_arg10) : S1024.Idx → EReal) shapeCasts_S1024_S1x1024 := by
    dsimp only [V, hostOps0]; after_results; rfl
  rw [e, row_of_vec]

/-! ## Which block each window gives a point -/

/-- The printed index maps over the 64 points: the three batch windows and the result move with the point along the
    rows; the weight and bias windows stay at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 3) = 0 ∧ win0_11.index t (1 : Fin 3) = t.val ∧ win0_11.index t (2 : Fin 3) = 0) :=
  (by decide +kernel : ∀ t : Fin grid0.N, _)

/-- The batch row that row p of point t's blocks sits on. -/
def row (t : Fin cfg0.N) (p : Fin 256) : Fin 16384 :=
  ⟨t.val * 256 + p.val, by have := Nat.lt_of_lt_of_eq t.isLt N_0; have := p.isLt; omega⟩

/-- Row p of the input block at point t is row 256 t + p of the input. -/
theorem x_row (c : Dev nD) (t : Fin cfg0.N) (p : Fin 256) (k : Fin 1024) :
    (iblk m c 0 t : S256x1024.Idx → EReal) (ix2 p k) = (V m c main_arg0 : S16384x1024.Idx → EReal) (ix2 (row t p) k) := by
  obtain ⟨⟨e0, e1⟩, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Row p of the hidden-state block at point t is row 256 t + p of the previous hidden state. -/
theorem h_row (c : Dev nD) (t : Fin cfg0.N) (p : Fin 256) (k : Fin 1024) :
    (iblk m c 1 t : S256x1024.Idx → EReal) (ix2 p k) = (V m c main_arg1 : S16384x1024.Idx → EReal) (ix2 (row t p) k) := by
  obtain ⟨-, ⟨e0, e1⟩, -⟩ := idx_facts t
  show V m c main_arg1 (((cfg0.win 1).blk t).view.emb (ix2 p k)) = _
  refine congrArg (V m c main_arg1) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- Row p of the cell-state block at point t is row 256 t + p of the previous cell state. -/
theorem c_row (c : Dev nD) (t : Fin cfg0.N) (p : Fin 256) (k : Fin 1024) :
    (iblk m c 2 t : S256x1024.Idx → EReal) (ix2 p k) = (V m c main_arg2 : S16384x1024.Idx → EReal) (ix2 (row t p) k) := by
  obtain ⟨-, -, ⟨e0, e1⟩, -⟩ := idx_facts t
  show V m c main_arg2 (((cfg0.win 2).blk t).view.emb (ix2 p k)) = _
  refine congrArg (V m c main_arg2) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- Every point is given the input-gate weights whole. -/
theorem Wi_whole (c : Dev nD) (t : Fin cfg0.N) : (iblk m c 3 t : S1024x2048.Idx → EReal) = V m c main_v0 := by
  obtain ⟨-, -, -, ⟨e0, e1⟩, -⟩ := idx_facts t
  funext y
  show V m c main_v0 (((cfg0.win 3).blk t).view.emb y) = V m c main_v0 y
  refine congrArg (V m c main_v0) (funext fun a => Fin.ext ?_)
  match a with
  | ⟨0, _⟩ => show win0_3.index t (0 : Fin 2) * 1024 + 1 * (y 0).val = (y 0).val; omega
  | ⟨1, _⟩ => show win0_3.index t (1 : Fin 2) * 2048 + 1 * (y 1).val = (y 1).val; omega

/-- Every point is given the forget-gate weights whole. -/
theorem Wf_whole (c : Dev nD) (t : Fin cfg0.N) : (iblk m c 4 t : S1024x2048.Idx → EReal) = V m c main_v1 := by
  obtain ⟨-, -, -, -, ⟨e0, e1⟩, -⟩ := idx_facts t
  funext y
  show V m c main_v1 (((cfg0.win 4).blk t).view.emb y) = V m c main_v1 y
  refine congrArg (V m c main_v1) (funext fun a => Fin.ext ?_)
  match a with
  | ⟨0, _⟩ => show win0_4.index t (0 : Fin 2) * 1024 + 1 * (y 0).val = (y 0).val; omega
  | ⟨1, _⟩ => show win0_4.index t (1 : Fin 2) * 2048 + 1 * (y 1).val = (y 1).val; omega

/-- Every point is given the output-gate weights whole. -/
theorem Wo_whole (c : Dev nD) (t : Fin cfg0.N) : (iblk m c 5 t : S1024x2048.Idx → EReal) = V m c main_v2 := by
  obtain ⟨-, -, -, -, -, ⟨e0, e1⟩, -⟩ := idx_facts t
  funext y
  show V m c main_v2 (((cfg0.win 5).blk t).view.emb y) = V m c main_v2 y
  refine congrArg (V m c main_v2) (funext fun a => Fin.ext ?_)
  match a with
  | ⟨0, _⟩ => show win0_5.index t (0 : Fin 2) * 1024 + 1 * (y 0).val = (y 0).val; omega
  | ⟨1, _⟩ => show win0_5.index t (1 : Fin 2) * 2048 + 1 * (y 1).val = (y 1).val; omega

/-- Every point is given the candidate weights whole. -/
theorem Wz_whole (c : Dev nD) (t : Fin cfg0.N) : (iblk m c 6 t : S1024x2048.Idx → EReal) = V m c main_v3 := by
  obtain ⟨-, -, -, -, -, -, ⟨e0, e1⟩, -⟩ := idx_facts t
  funext y
  show V m c main_v3 (((cfg0.win 6).blk t).view.emb y) = V m c main_v3 y
  refine congrArg (V m c main_v3) (funext fun a => Fin.ext ?_)
  match a with
  | ⟨0, _⟩ => show win0_6.index t (0 : Fin 2) * 1024 + 1 * (y 0).val = (y 0).val; omega
  | ⟨1, _⟩ => show win0_6.index t (1 : Fin 2) * 2048 + 1 * (y 1).val = (y 1).val; omega

/-- Every point is given the input-gate bias row whole. -/
theorem bi_whole (c : Dev nD) (t : Fin cfg0.N) : (iblk m c 7 t : S1x1024.Idx → EReal) = V m c main_v4 := by
  obtain ⟨-, -, -, -, -, -, -, ⟨e0, e1⟩, -⟩ := idx_facts t
  funext y
  show V m c main_v4 (((cfg0.win 7).blk t).view.emb y) = V m c main_v4 y
  refine congrArg (V m c main_v4) (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega

/-- Every point is given the forget-gate bias row whole. -/
theorem bf_whole (c : Dev nD) (t : Fin cfg0.N) : (iblk m c 8 t : S1x1024.Idx → EReal) = V m c main_v5 := by
  obtain ⟨-, -, -, -, -, -, -, -, ⟨e0, e1⟩, -⟩ := idx_facts t
  funext y
  show V m c main_v5 (((cfg0.win 8).blk t).view.emb y) = V m c main_v5 y
  refine congrArg (V m c main_v5) (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Every point is given the output-gate bias row whole. -/
theorem bo_whole (c : Dev nD) (t : Fin cfg0.N) : (iblk m c 9 t : S1x1024.Idx → EReal) = V m c main_v6 := by
  obtain ⟨-, -, -, -, -, -, -, -, -, ⟨e0, e1⟩, -⟩ := idx_facts t
  funext y
  show V m c main_v6 (((cfg0.win 9).blk t).view.emb y) = V m c main_v6 y
  refine congrArg (V m c main_v6) (funext fun a => Fin.ext ?_)
  match a with
  | ⟨0, _⟩ => show win0_9.index t (0 : Fin 2) * 1 + 1 * (y 0).val = (y 0).val; omega
  | ⟨1, _⟩ => show win0_9.index t (1 : Fin 2) * 1024 + 1 * (y 1).val = (y 1).val; omega

/-- Every point is given the candidate bias row whole. -/
theorem bz_whole (c : Dev nD) (t : Fin cfg0.N) : (iblk m c 10 t : S1x1024.Idx → EReal) = V m c main_v7 := by
  obtain ⟨-, -, -, -, -, -, -, -, -, -, ⟨e0, e1⟩, -⟩ := idx_facts t
  funext y
  show V m c main_v7 (((cfg0.win 10).blk t).view.emb y) = V m c main_v7 y
  refine congrArg (V m c main_v7) (funext fun a => Fin.ext ?_)
  match a with
  | ⟨0, _⟩ => show win0_10.index t (0 : Fin 2) * 1 + 1 * (y 0).val = (y 0).val; omega
  | ⟨1, _⟩ => show win0_10.index t (1 : Fin 2) * 1024 + 1 * (y 1).val = (y 1).val; omega

/-! ## What a point writes back is its block of the whole step -/

/-- The cell step of the whole batch, over the arrays as the region finds them. -/
abbrev foundStep (c : Dev nD) : S2x16384x1024.Idx → EReal :=
  Cert.Cell.stacked (B := 16384) (V m c main_arg0) (V m c main_arg1) (V m c main_arg2)
    (V m c main_v0) (V m c main_v1) (V m c main_v2) (V m c main_v3)
    (fun j => (V m c main_v4 : S1x1024.Idx → EReal) (ix2 (0 : Fin 1) j)) (fun j => (V m c main_v5 : S1x1024.Idx → EReal) (ix2 (0 : Fin 1) j))
    (fun j => (V m c main_v6 : S1x1024.Idx → EReal) (ix2 (0 : Fin 1) j)) (fun j => (V m c main_v7 : S1x1024.Idx → EReal) (ix2 (0 : Fin 1) j))

/-- Where index (s, p, j) of point t's result block sits in the result: (s, 256 t + p, j). -/
theorem out_emb (t : Fin cfg0.N) (s : Fin 2) (p : Fin 256) (j : Fin 1024) :
    ((cfg0.win 11).blk t).view.emb (ix3 s p j) = (ix3 s (row t p) j : S2x16384x1024.Idx) := by
  obtain ⟨-, -, -, -, -, -, -, -, -, -, -, e0, e1, e2⟩ := idx_facts t
  refine funext fun a => Fin.ext ?_
  match a with
  | ⟨0, _⟩ => show win0_11.index t (0 : Fin 3) * 2 + 1 * s.val = s.val; omega
  | ⟨1, _⟩ => show win0_11.index t (1 : Fin 3) * 256 + 1 * p.val = t.val * 256 + p.val; omega
  | ⟨2, _⟩ => show win0_11.index t (2 : Fin 3) * 1024 + 1 * j.val = j.val; omega

/-- WHAT POINT t WRITES BACK is its block of the cell step of the whole batch. -/
theorem flushed_eq (c : Dev nD) (t : Fin cfg0.N) :
    (dats m 0 c).flushed 11 t = ((cfg0.win 11).blk t).view.read (Elt Ideal) (foundStep m c) := by
  rw [Value.flushed11]
  funext y
  obtain ⟨s, p, j, rfl⟩ : ∃ (s : Fin 2) (p : Fin 256) (j : Fin 1024), y = ix3 s p j := ⟨y 0, y 1, y 2, eq_ix3 y⟩
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 s p j)
    = foundStep m c (((cfg0.win 11).blk t).view.emb (ix3 s p j))
  refine (Block.out_at (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 s p j)).trans ?_
  rw [out_emb t s p j]
  unfold Block.blockStep foundStep
  rw [Wi_whole m c t, Wf_whole m c t, Wo_whole m c t, Wz_whole m c t, bi_whole m c t, bf_whole m c t, bo_whole m c t, bz_whole m c t]
  exact Cert.Cell.stacked_rows _ _ _ _ _ _ _ _ _ _ _ _ _ _ s p (row t p) j (x_row m c t p) (h_row m c t p) (c_row m c t p)

/-! ## The blocks tile the result -/

/-- An index of the result is in point t's block iff each coordinate is in the block's range on its axis. -/
theorem mem_blk (t : Fin cfg0.N) (i : S2x16384x1024.Idx) :
    i ∈ ((cfg0.win 11).blk t).view.set ↔ ∀ a : Fin 3, win0_11.index t a * S2x256x1024.size a ≤ (i a).val ∧ (i a).val < win0_11.index t a * S2x256x1024.size a + S2x256x1024.size a := by
  show i ∈ ((View.whole main_v8).slice (win0_11.rect t)).set ↔ _
  rw [View.set_slice_whole, Rect.mem_set_unit]
  exact Iff.rfl

/-- Every index of the result is in the block of the point its row falls to. -/
theorem covered (i : S2x16384x1024.Idx) :
    ∃ t : Fin cfg0.N, (cfg0.win 11).flush t = true ∧ i ∈ ((cfg0.win 11).blk t).view.set := by
  have h0 : (i 0).val < 2 := (i 0).isLt
  have h1 : (i 1).val < 16384 := (i 1).isLt
  have h2 : (i 2).val < 1024 := (i 2).isLt
  have hN : (i 1).val / 256 < cfg0.N := by rw [show cfg0.N = 64 from N_0]; omega
  obtain ⟨-, -, -, -, -, -, -, -, -, -, -, e0, e1, e2⟩ := idx_facts ⟨(i 1).val / 256, hN⟩
  have e1' : win0_11.index ⟨(i 1).val / 256, hN⟩ (1 : Fin 3) = (i 1).val / 256 := e1
  refine ⟨⟨(i 1).val / 256, hN⟩, flush0_11 _, (mem_blk _ i).mpr ?_⟩
  intro a
  match a with
  | ⟨0, _⟩ => show win0_11.index ⟨(i 1).val / 256, hN⟩ (0 : Fin 3) * 2 ≤ (i 0).val ∧ (i 0).val < win0_11.index ⟨(i 1).val / 256, hN⟩ (0 : Fin 3) * 2 + 2; omega
  | ⟨1, _⟩ => show win0_11.index ⟨(i 1).val / 256, hN⟩ (1 : Fin 3) * 256 ≤ (i 1).val ∧ (i 1).val < win0_11.index ⟨(i 1).val / 256, hN⟩ (1 : Fin 3) * 256 + 256; omega
  | ⟨2, _⟩ => show win0_11.index ⟨(i 1).val / 256, hN⟩ (2 : Fin 3) * 1024 ≤ (i 2).val ∧ (i 2).val < win0_11.index ⟨(i 1).val / 256, hN⟩ (2 : Fin 3) * 1024 + 1024; omega

/-- The result array after the run is the cell step of the whole batch, over the arrays the region finds. -/
theorem final_found (c : Dev nD) : (dats m 0 c).arrAt 11 cfg0.N = foundStep m c :=
  (dats m 0 c).arrAt_eq_of_cover 11 (foundStep m c) (fun t _ => flushed_eq m c t) covered

/-- Those arrays are the arguments: the result array after the run is the cell step of the argument arrays. -/
theorem final (c : Dev nD) : (dats m 0 c).arrAt 11 cfg0.N
    = Cert.Cell.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  have hbi : (fun j : Fin 1024 => (V m c main_v4 : S1x1024.Idx → EReal) (ix2 (0 : Fin 1) j))
      = fun j => (m ((c : Thread nD τ).loc main_arg4) : S1024.Idx → EReal) (ix1 j) := funext (found_bi m c)
  have hbf : (fun j : Fin 1024 => (V m c main_v5 : S1x1024.Idx → EReal) (ix2 (0 : Fin 1) j))
      = fun j => (m ((c : Thread nD τ).loc main_arg6) : S1024.Idx → EReal) (ix1 j) := funext (found_bf m c)
  have hbo : (fun j : Fin 1024 => (V m c main_v6 : S1x1024.Idx → EReal) (ix2 (0 : Fin 1) j))
      = fun j => (m ((c : Thread nD τ).loc main_arg8) : S1024.Idx → EReal) (ix1 j) := funext (found_bo m c)
  have hbz : (fun j : Fin 1024 => (V m c main_v7 : S1x1024.Idx → EReal) (ix2 (0 : Fin 1) j))
      = fun j => (m ((c : Thread nD τ).loc main_arg10) : S1024.Idx → EReal) (ix1 j) := funext (found_bz m c)
  rw [final_found]
  unfold foundStep Cert.Cell.result
  rw [hbi, hbf, hbo, hbz, found_Wi, found_Wf, found_Wo, found_Wz, V_main_arg0, V_main_arg1, V_main_arg2]

/-! ## The run, read -/

/-- Every weakly fair execution of the kernel program ends with the result array at the cell step of the argument
    arrays, the arguments unchanged. -/
theorem run : θ_run defs (onTc (τ := τ) (main (F := Ideal))) ⟨m, fun _ => 0, ρ⟩ fun r => ∀ c : Dev nD,
      r.2.mem ((c : Thread nD τ).loc main_v8)
        = Cert.Cell.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Whole

end
-- ==== Proof.RefValue.lean ====
/-
  The reference, read at an index, is the cell step.

  The reference sets the input and the previous hidden state side by side into rows of 2048, multiplies by each
  transposed weight matrix, adds the bias repeated down the rows, and spells the logistic function as
  1 / (1 + e^(-s)). Read at row r and unit j:
    * the product is Σ over all 2048 columns of the joined row times the weight row j, which is the sum over the
      input's 1024 columns against the weight row's left half plus the sum over the hidden state's 1024 columns against
      its right half;
    * the quotient is the logistic function, by that function's definition on the extended reals, the word 0x3F800000
      being the real one.
  The four gates are one text under four sets of names, so one lemma serves them all. The result stacks the new hidden
  state (plane 0) on the new cell state (plane 1).
-/
import proofs.«141695_j51376398795261_1_alg».proof.Proof.Gen.ReferenceIdeal.Read
import proofs.«141695_j51376398795261_1_alg».proof.Proof.Rows
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Cell (Mat Vec1 lo hi pre cellNew hiddenNew stacked result)

/-- The joined row's left half is the input row. -/
theorem joined_lo (x h : Mat 16384 1024) (r : Fin 16384) (k : Fin 1024) :
    val_main_v0 (F := Ideal) x h (ix2 r (lo k)) = x (ix2 r k) := by
  unfold val_main_v0
  refine concatenate_pair_apply_left (1 : Fin 2) x h concatenates_S16384x1024_S16384x1024_S16384x2048_d1 (ix2 r (lo k)) rfl (ix2 r k) ?_
  intro b
  match b with
  | ⟨0, _⟩ => rfl
  | ⟨1, _⟩ => rfl

/-- Its right half is the previous hidden state's row. -/
theorem joined_hi (x h : Mat 16384 1024) (r : Fin 16384) (k : Fin 1024) :
    val_main_v0 (F := Ideal) x h (ix2 r (hi k)) = h (ix2 r k) := by
  unfold val_main_v0
  refine concatenate_pair_apply_right (1 : Fin 2) x h concatenates_S16384x1024_S16384x1024_S16384x2048_d1 (ix2 r (hi k)) rfl rfl (ix2 r k) ?_ ?_
  · intro b hb
    match b, hb with
    | ⟨0, _⟩, _ => rfl
    | ⟨1, _⟩, hb => exact absurd rfl hb
  · show k.val + 1024 = 1024 + k.val
    omega

/-- The transposed weight matrix at (k, j) is the weight matrix at (j, k). -/
theorem transposed_at (W : Mat 1024 2048) (k : Fin 2048) (j : Fin 1024) :
    val_main_v1 (F := Ideal) W (ix2 k j) = W (ix2 j k) := by
  rw [val_main_v1_apply]
  exact congrArg W (funext fun a => match a with
    | ⟨0, _⟩ => rfl
    | ⟨1, _⟩ => rfl)

/-- A gate's pre-activation in the reference, at row r and unit j. -/
theorem gate_at (x h : Mat 16384 1024) (W : Mat 1024 2048) (b : Vec1) (r : Fin 16384) (j : Fin 1024) :
    val_main_v5 (F := Ideal) x h W b (ix2 r j) = pre x h W (fun j => b (ix1 j)) r j := by
  rw [val_main_v5_apply, val_main_v2_apply, val_main_v4_apply, val_main_v3_apply]
  have hl : ∀ k : Fin 2048, lidx_main_v2 (ix2 r j) k = ix2 r k := fun k => funext fun a => match a with
    | ⟨0, _⟩ => rfl
    | ⟨1, _⟩ => rfl
  have hr : ∀ k : Fin 2048, ridx_main_v2 (ix2 r j) k = ix2 k j := fun k => funext fun a => match a with
    | ⟨0, _⟩ => rfl
    | ⟨1, _⟩ => rfl
  have hb : idx_main_v3 (idx_main_v4 (ix2 r j)) = ix1 j := funext fun a => match a with
    | ⟨0, _⟩ => rfl
  simp only [hl, hr, hb, transposed_at]
  exact Cert.Cell.pre_of_joined x h W (fun j => b (ix1 j)) r j (fun k => val_main_v0 (F := Ideal) x h (ix2 r k))
    (joined_lo x h r) (joined_hi x h r)

/-- A logistic gate in the reference, at row r and unit j. -/
theorem logisticGate_at (x h : Mat 16384 1024) (W : Mat 1024 2048) (b : Vec1) (r : Fin 16384) (j : Fin 1024) :
    val_main_v11 (F := Ideal) x h W b (ix2 r j) = Ideal.logistic (pre x h W (fun j => b (ix1 j)) r j) := by
  rw [val_main_v11_apply, val_main_v10_apply, val_main_cst_0_apply, val_main_v9_apply, val_main_v8_apply, val_main_cst_apply,
    val_main_v7_apply, val_main_v6_apply, gate_at]
  show Ideal.div (Ideal.ofBits .f32 0x3F800000#32)
      (Ideal.ofBits .f32 0x3F800000#32 + Ideal.exp (-(pre x h W (fun j => b (ix1 j)) r j))) = _
  rw [Cert.Cell.ofBits_one]
  rfl

/-- The candidate in the reference, at row r and unit j. -/
theorem candidate_at (x h : Mat 16384 1024) (W : Mat 1024 2048) (b : Vec1) (r : Fin 16384) (j : Fin 1024) :
    val_main_v39 (F := Ideal) x h W b (ix2 r j) = Ideal.tanh (pre x h W (fun j => b (ix1 j)) r j) := by
  rw [val_main_v39_apply]
  show Ideal.tanh (val_main_v5 (F := Ideal) x h W b (ix2 r j)) = _
  rw [gate_at]

/-- The new cell state in the reference, at row r and unit j. -/
theorem cell_at (x h c : Mat 16384 1024) (Wi : Mat 1024 2048) (bi : Vec1) (Wf : Mat 1024 2048) (bf : Vec1)
    (Wz : Mat 1024 2048) (bz : Vec1) (r : Fin 16384) (j : Fin 1024) :
    val_main_v42 (F := Ideal) x h c Wi bi Wf bf Wz bz (ix2 r j)
      = cellNew x h c Wi Wf Wz (fun j => bi (ix1 j)) (fun j => bf (ix1 j)) (fun j => bz (ix1 j)) r j := by
  rw [val_main_v42_apply, val_main_v40_apply, val_main_v41_apply, logisticGate_at, candidate_at]
  show _ * _ + val_main_v11 (F := Ideal) x h Wf bf (ix2 r j) * c (ix2 r j) = _
  rw [logisticGate_at]
  rfl

/-- The new hidden state in the reference, at row r and unit j. -/
theorem hidden_at (x h c : Mat 16384 1024) (Wi : Mat 1024 2048) (bi : Vec1) (Wf : Mat 1024 2048) (bf : Vec1)
    (Wo : Mat 1024 2048) (bo : Vec1) (Wz : Mat 1024 2048) (bz : Vec1) (r : Fin 16384) (j : Fin 1024) :
    val_main_v44 (F := Ideal) x h c Wi bi Wf bf Wo bo Wz bz (ix2 r j)
      = hiddenNew x h c Wi Wf Wo Wz (fun j => bi (ix1 j)) (fun j => bf (ix1 j)) (fun j => bo (ix1 j)) (fun j => bz (ix1 j)) r j := by
  rw [val_main_v44_apply, val_main_v43_apply, cell_at]
  show val_main_v11 (F := Ideal) x h Wo bo (ix2 r j) * Ideal.tanh _ = _
  rw [logisticGate_at]
  rfl

/-- The reference's result is the cell step of the whole batch. -/
theorem ref_eq (x h c : Mat 16384 1024) (Wi : Mat 1024 2048) (bi : Vec1) (Wf : Mat 1024 2048) (bf : Vec1)
    (Wo : Mat 1024 2048) (bo : Vec1) (Wz : Mat 1024 2048) (bz : Vec1) :
    val_main_v47 (F := Ideal) x h c Wi bi Wf bf Wo bo Wz bz = result x h c Wi bi Wf bf Wo bo Wz bz := by
  funext i
  obtain ⟨s, r, j, rfl⟩ : ∃ (s : Fin 2) (r : Fin 16384) (j : Fin 1024), i = ix3 s r j := ⟨i 0, i 1, i 2, eq_ix3 i⟩
  unfold val_main_v47 result
  by_cases hs : s.val = 0
  · rw [Cert.Cell.stacked_plane0 _ _ _ _ _ _ _ _ _ _ _ (ix3 s r j) r j hs rfl rfl]
    refine (concatenate_pair_apply_left (t := S2x16384x1024) (s₁ := S1x16384x1024) (s₂ := S1x16384x1024) (0 : Fin 3)
      (val_main_v45 (F := Ideal) x h c Wi bi Wf bf Wo bo Wz bz) (val_main_v46 (F := Ideal) x h c Wi bi Wf bf Wz bz)
      concatenates_S1x16384x1024_S1x16384x1024_S2x16384x1024_d0 (ix3 s r j) rfl (ix3 (0 : Fin 1) r j) ?_).trans ?_
    · intro b
      match b with
      | ⟨0, _⟩ => exact hs.symm
      | ⟨1, _⟩ => rfl
      | ⟨2, _⟩ => rfl
    · have e : idx_main_v45 (ix3 (0 : Fin 1) r j) = ix2 r j := funext fun a => match a with
        | ⟨0, _⟩ => rfl
        | ⟨1, _⟩ => rfl
      rw [val_main_v45_apply, e]
      exact hidden_at x h c Wi bi Wf bf Wo bo Wz bz r j
  · have hs1 : s.val = 1 := by have := s.isLt; omega
    rw [Cert.Cell.stacked_plane1 _ _ _ _ _ _ _ _ _ _ _ (ix3 s r j) r j hs1 rfl rfl]
    refine (concatenate_pair_apply_right (t := S2x16384x1024) (s₁ := S1x16384x1024) (s₂ := S1x16384x1024) (0 : Fin 3)
      (val_main_v45 (F := Ideal) x h c Wi bi Wf bf Wo bo Wz bz) (val_main_v46 (F := Ideal) x h c Wi bi Wf bf Wz bz)
      concatenates_S1x16384x1024_S1x16384x1024_S2x16384x1024_d0 (ix3 s r j) rfl rfl (ix3 (0 : Fin 1) r j) ?_ ?_).trans ?_
    · intro b hb
      match b, hb with
      | ⟨0, _⟩, hb => exact absurd rfl hb
      | ⟨1, _⟩, _ => rfl
      | ⟨2, _⟩, _ => rfl
    · show 0 + 1 = s.val
      omega
    · have e : idx_main_v46 (ix3 (0 : Fin 1) r j) = ix2 r j := funext fun a => match a with
        | ⟨0, _⟩ => rfl
        | ⟨1, _⟩ => rfl
      rw [val_main_v46_apply, e]
      exact cell_at x h c Wi bi Wf bf Wz bz r j

end Cert.ReferenceIdeal.RefValue

end
-- ==== Proof.lean ====
/-
  The certificate of one step of a long short-term memory cell: a Pallas kernel that keeps the four gate weight
  matrices resident and splits each gate's product into "input against the left half of the weights" plus "previous
  hidden state against the right half", against a reference that joins input and hidden state into rows of 2048 and
  multiplies once per gate.

  On the extended reals both programs end with the same array: plane 0 the new hidden state
  o · tanh(c'), plane 1 the new cell state c' = i · z + f · c, with i, f, o the logistic function and z the hyperbolic
  tangent of  Σ_k x(r, k) W(j, k) + Σ_k h(r, k) W(j, 1024 + k) + b(j)  for the gate's own W and b.
    * Kernel side: the body's arithmetic at an entry, the two stores as one function of the block index, the 64
      row blocks tiling the result, and the step acting row by row.
    * Reference side: the joined row's sum over 2048 columns is the sum over its two halves; 1 / (1 + e^(-s)) is the
      logistic function; the stack is a two-piece concatenation.
  Neither law needs the inputs to be finite, so the precondition is never opened. The idealization rewrote nothing, so
  there is nothing to preserve; the three frames are the generated frame runs and the reference's generated run.
-/
import proofs.«141695_j51376398795261_1_alg».proof.Defs
import proofs.«141695_j51376398795261_1_alg».proof.Proof.Gen.Kernel
import proofs.«141695_j51376398795261_1_alg».proof.Proof.Gen.Kernel.Skeleton
import proofs.«141695_j51376398795261_1_alg».proof.Proof.Gen.Kernel.Launch
import proofs.«141695_j51376398795261_1_alg».proof.Proof.Gen.Kernel.Points
import proofs.«141695_j51376398795261_1_alg».proof.Proof.Gen.Kernel.Frame
import proofs.«141695_j51376398795261_1_alg».proof.Proof.Gen.KernelIdeal
import proofs.«141695_j51376398795261_1_alg».proof.Proof.Gen.KernelIdeal.Skeleton
import proofs.«141695_j51376398795261_1_alg».proof.Proof.Gen.KernelIdeal.Launch
import proofs.«141695_j51376398795261_1_alg».proof.Proof.Gen.KernelIdeal.Points
import proofs.«141695_j51376398795261_1_alg».proof.Proof.Gen.KernelIdeal.Frame
import proofs.«141695_j51376398795261_1_alg».proof.Proof.Gen.ReferenceIdeal
import proofs.«141695_j51376398795261_1_alg».proof.Proof.Gen.Pre_finite_inputs
import proofs.«141695_j51376398795261_1_alg».proof.Proof.Gen.KernelIdeal.Value
import proofs.«141695_j51376398795261_1_alg».proof.Proof.Gen.ReferenceIdeal.Run
import proofs.«141695_j51376398795261_1_alg».proof.Proof.Gen.ReferenceIdeal.Read
import proofs.«141695_j51376398795261_1_alg».proof.Proof.KernelValue
import proofs.«141695_j51376398795261_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the eleven arguments, end with the cell step of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
